-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S100000x64 : Shape := ⟨2, ![100000, 64]⟩
abbrev S5000x64 : Shape := ⟨2, ![5000, 64]⟩
abbrev S1x128 : Shape := ⟨2, ![1, 128]⟩
abbrev S1x64 : Shape := ⟨2, ![1, 64]⟩

abbrev nBuf : Space → Nat
  | .hbm => 68
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S128, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import proofs.«413117_j40037685133533_4_alg».proof.Proof.Gen.ReferenceIdeal.Read
import Idealize.ShloMosaic.Lib.Pipeline.Value
import Idealize.ShloMosaic.Lib.ValueIdx
import Idealize.ShloMosaic.PureOps.Ideal.Laws

/-!
  The two halves of the graph-convolution layer as functions of what flows between them.

  * `aggOf h e w`: the normalised neighbourhood sum of a feature table `h` — gather row `src[j]` of `h` for each of
    the 1700000 edges (the given ones and one self loop per node), scale it by the edge's symmetric normalisation
    `dinv[src] · w · dinv[dst]`, and scatter-add it into row `dst[j]`.  Everything but `h` is a function of the edge
    list `e` and the edge weights `w` alone.
  * `headOf A b1 W2 b2`: `max(A + b1, 0) · W2 + b2`, rows by rows.

  The reference is `headOf (aggOf (x · W1) e w) b1 W2 b2` on the nose, and each of the kernel's two pallas_calls
  computes one of the two dense products; only the head has to be read at an index:
  `headOf A b1 W2 b2 [r, q] = (∑ k, max(A[r, k] + b1[k], 0) · W2[k, q]) + b2[q]`.
-/

noncomputable section

namespace Cert.Layer

open Cert.ReferenceIdeal Cert.ReferenceIdeal.Read Idealize.ShloMosaic

variable {F : FTy → Type} [FloatOps F]

/-- The normalised neighbourhood sum of a feature table. -/
def aggOf (h : (⟨S100000x128, .f32⟩ : BufTy).Contents (Elt F)) (e : (⟨S2x1600000, .i32⟩ : BufTy).Contents (Elt F)) (w : (⟨S1600000, .f32⟩ : BufTy).Contents (Elt F)) : (⟨S100000x128, .f32⟩ : BufTy).Contents (Elt F) :=
  Host.scatterAdd scatter_S100000x128_S1700000x1_S1700000x128_1_0_0_1 (val_main_v43 (F := F)) (val_main_v44 (F := F) e)
    (mulf (Host.gather gather_S100000x128_S1700000x1_S1700000x128_1_0_n_n_0_1_1128 h (val_main_v38 (F := F) e)) (val_main_v41 (F := F) e w))

/-- Bias, rectifier, second product, bias. -/
def headOf (A : (⟨S100000x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F)) : (⟨S100000x64, .f32⟩ : BufTy).Contents (Elt F) :=
  addf (Host.dotGeneral dot_S100000x128_S128x64_S100000x64_1_0_0_1_n_n none
      (maximumf (addf A (val_main_v47 (F := F) b1)) (val_main_call1_v0 (F := F))) W2) (val_main_v52 (F := F) b2)

/-- The reference's result is the head of the aggregation of the host's product `x · W1`. -/
theorem reference_eq (x0 : (⟨S100000x128, .f32⟩ : BufTy).Contents (Elt F)) (x1 : (⟨S2x1600000, .i32⟩ : BufTy).Contents (Elt F)) (x2 : (⟨S1600000, .f32⟩ : BufTy).Contents (Elt F)) (x3 : (⟨S128x128, .f32⟩ : BufTy).Contents (Elt F))
    (x4 : (⟨S128, .f32⟩ : BufTy).Contents (Elt F)) (x5 : (⟨S128x64, .f32⟩ : BufTy).Contents (Elt F)) (x6 : (⟨S64, .f32⟩ : BufTy).Contents (Elt F)) :
    val_main_v53 (F := F) x0 x1 x2 x3 x4 x5 x6 = headOf (aggOf (val_main_v32 (F := F) x0 x3) x1 x2) x4 x5 x6 := rfl

/-- The head is an elementwise sum of the second product and the broadcast bias. -/
theorem headOf_pointwise (A : (⟨S100000x128, .f32⟩ : BufTy).Contents (Elt F)) (b1 : (⟨S128, .f32⟩ : BufTy).Contents (Elt F)) (W2 : (⟨S128x64, .f32⟩ : BufTy).Contents (Elt F)) (b2 : (⟨S64, .f32⟩ : BufTy).Contents (Elt F)) (i : S100000x64.Idx) :
    headOf A b1 W2 b2 i = FloatOps.addf (Host.dotGeneral dot_S100000x128_S128x64_S100000x64_1_0_0_1_n_n none
      (maximumf (addf A (val_main_v47 (F := F) b1)) (val_main_call1_v0 (F := F))) W2 i) (val_main_v52 (F := F) b2 i) := rfl

/-- What the second product multiplies, at an index: the rectified biased entry. -/
theorem rectified_apply (A : (⟨S100000x128, .f32⟩ : BufTy).Contents (Elt F)) (b1 : (⟨S128, .f32⟩ : BufTy).Contents (Elt F)) (p : S100000x128.Idx) :
    maximumf (addf A (val_main_v47 (F := F) b1)) (val_main_call1_v0 (F := F)) p
      = FloatOps.maximumf (FloatOps.addf (A p) (b1 (idx_main_v46 (idx_main_v47 p)))) (FloatOps.ofBits .f32 0x00000000#32) := by
  show FloatOps.maximumf (FloatOps.addf (A p) (val_main_v47 (F := F) b1 p)) (val_main_call1_v0 (F := F) p) = _
  rw [val_main_v47_apply, val_main_v46_apply, val_main_call1_v0_apply, val_main_call1_cst_apply]

/-- The host's second product at an index: the sum of the 128 products along a row of the left operand and a column
    of `W2`. -/
theorem second_product_apply (Y : (⟨S100000x128, .f32⟩ : BufTy).Contents (Elt Ideal)) (W2 : (⟨S128x64, .f32⟩ : BufTy).Contents (Elt Ideal)) (i : S100000x64.Idx) :
    Host.dotGeneral (F := Ideal) (φ₁ := .f32) (φ₂ := .f32) dot_S100000x128_S128x64_S100000x64_1_0_0_1_n_n none Y W2 i
      = ∑ k : Fin 128, Y (lidx_main_v50 i k) * W2 (ridx_main_v50 i k) := by
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v50 i k := funext fun a => Fin.ext (by
    match a with
    | ⟨0, _⟩ => exact lhs_main_v50_0 _ _
    | ⟨1, _⟩ => exact (lhs_main_v50_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-- The head at an index: `(∑ k, max(A[r, k] + b1[k], 0) · W2[k, q]) + b2[q]`. -/
theorem headOf_apply (A : (⟨S100000x128, .f32⟩ : BufTy).Contents (Elt Ideal)) (b1 : (⟨S128, .f32⟩ : BufTy).Contents (Elt Ideal)) (W2 : (⟨S128x64, .f32⟩ : BufTy).Contents (Elt Ideal)) (b2 : (⟨S64, .f32⟩ : BufTy).Contents (Elt Ideal)) (i : S100000x64.Idx) :
    headOf (F := Ideal) A b1 W2 b2 i
      = FloatOps.addf (F := Ideal) (φ := .f32) (∑ k : Fin 128,
          FloatOps.maximumf (F := Ideal) (φ := .f32) (FloatOps.addf (F := Ideal) (φ := .f32) (A (lidx_main_v50 i k)) (b1 (idx_main_v46 (idx_main_v47 (lidx_main_v50 i k)))))
            (FloatOps.ofBits (F := Ideal) .f32 0x00000000#32) * W2 (ridx_main_v50 i k))
          (b2 (idx_main_v51 (idx_main_v52 i))) := by
  rw [headOf_pointwise, second_product_apply, val_main_v52_apply, val_main_v51_apply]
  refine congrArg (FloatOps.addf (F := Ideal) (φ := .f32) · _) (Finset.sum_congr rfl fun k _ => ?_)
  rw [rectified_apply]

end Cert.Layer

end
-- ==== Proof.Features.lean ====
import proofs.«413117_j40037685133533_4_alg».proof.Proof.Gen.KernelIdeal.Frame
import proofs.«413117_j40037685133533_4_alg».proof.Proof.Gen.ReferenceIdeal.Read
import Idealize.ShloMosaic.Lib.Pipeline.Value
import Idealize.ShloMosaic.Lib.ValueIdx
import Idealize.ShloMosaic.PureOps.Ideal.Laws

/-!
  The first pallas_call: the feature table `h = x · W1`, one block of 5000 rows per grid point.

  At the extended reals the body's `tpu.matmul` into a zero accumulator is, at row `r` and column `q` of the block,
  the plain sum `∑ k, x[r, k] · W1[k, q]` over the 128 contracted columns, and the store's change of format
  (f32 to bf16) is the identity.  Point `t` reads rows `5000 t … 5000 t + 4999` of `x`, all of `W1`, and writes
  back rows `5000 t … 5000 t + 4999` of `h`; the twenty blocks tile the 100000 rows.  So the array the region
  leaves IS the host's `dot_general` of the two arrays it found: the same sum at every index.
-/

set_option maxRecDepth 16384

noncomputable section

namespace Cert.KernelIdeal.Features

open Cert.KernelIdeal Cert.KernelIdeal.Gen
open Idealize.ShloMosaic Idealize.ShloMosaic.TcCoe Idealize.SL.Sem
open Idealize.ShloMosaic.Pipeline (Dat)

/-! ## The block product at an index -/

theorem hz : (![0, 0] : Fin 2 → Nat) = fun _ => 0 := funext fun a => by fin_cases a <;> rfl

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0` of the block of `x`, at contracted column `k`. -/
abbrev rowAt (i : S5000x128.Idx) (k : Fin 128) : S5000x128.Idx := fun a => match a with
  | ⟨0, _⟩ => ⟨(i 0).val, (i 0).isLt⟩
  | ⟨1, _⟩ => ⟨k.val, k.isLt⟩
/-- Column `i 1` of `W1`, at contracted row `k`. -/
abbrev colAt (i : S5000x128.Idx) (k : Fin 128) : S128x128.Idx := fun a => match a with
  | ⟨0, _⟩ => ⟨k.val, k.isLt⟩
  | ⟨1, _⟩ => ⟨(i 1).val, (i 1).isLt⟩

/-- The body's stored value at an index of the block: the sum of the 128 products along the row of `x`'s block and
    the column of `W1` (the accumulator is the zero splat; narrowing the format changes nothing at the extended reals). -/
theorem product_apply (x0 : (⟨S5000x128, .f32⟩ : BufTy).Contents (Elt Ideal)) (x1 : (⟨S128x128, .f32⟩ : BufTy).Contents (Elt Ideal)) (i : S5000x128.Idx) :
    k0_pay1 (F := Ideal) x0 x1 i = ∑ k : Fin 128, x0 (rowAt i k) * x1 (colAt i k) := by
  show FloatOps.matmul (F := Ideal) (φ₁ := .f32) (φ₂ := .f32) dot_S5000x128_S128x128_S5000x128_1_0_0_1_n_n none x0 x1 (constant (F := Ideal) S5000x128 .f32 0x00000000#32) i = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = rowAt i k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx i ((ValueIdx.contrEquiv1 dot_S5000x128_S128x128_S5000x128_1_0_0_1_n_n 128 rfl rfl).symm k) = colAt i k := funext fun a => Fin.ext (by
    match a with
    | ⟨0, _⟩ => exact (rhs_blk_0 _ _).trans hk
    | ⟨1, _⟩ => exact rhs_blk_1 _ _)
  rw [el, er]

/-! ## From the blocks to the array -/

variable (V : (c : Dev nD) → (b : Ref sig .tc) → Buf (Elt Ideal) ((c : Thread nD τ).loc b))

/-- The whole table: the host's product of the two arrays the region finds, `(x · W1)[r, q] = ∑ k, x[r, k] · W1[k, q]`. -/
def table (c : Dev nD) : Buf (Elt Ideal) ((c : Thread nD τ).loc main_v32) :=
  Cert.ReferenceIdeal.Read.val_main_v32 (F := Ideal) (V c main_arg0) (V c main_arg3)

/-- The printed index maps over the twenty points: `x`'s block and the table's block are the same block of rows, and
    every other block coordinate is `0`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem idx_onto : ∀ q : Fin 20, ∃ t : Fin cfg0.N, win0_2.index t = ![q.val, 0] :=
  (by decide +kernel : ∀ q : Fin 20, ∃ t : Fin grid0.N, win0_2.index t = ![q.val, 0])

/-- WHAT POINT `t` WRITES BACK is block `t` of the table: row `r` of the block is row `5000 t + r` of `x`, the
    columns and all of `W1` sit where they are, and the two sums run over the same products. -/
theorem flushed_eq (c : Dev nD) (t : Fin cfg0.N) :
    (dat0 V c).flushed 2 t = ((cfg0.win 2).blk t).view.read (Elt Ideal) (table V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j
      = Cert.ReferenceIdeal.Read.val_main_v32 (F := Ideal) (V c main_arg0) (V c main_arg3) (((cfg0.win 2).blk t).view.emb j)
  rw [product_apply, Cert.ReferenceIdeal.Read.val_main_v32_apply]
  refine Finset.sum_congr rfl fun k _ => ?_
  have hx : iblk0 V c 0 t (rowAt j k) = V c main_arg0 (Cert.ReferenceIdeal.Read.lidx_main_v32 (((cfg0.win 2).blk t).view.emb j) k) := by
    show V c main_arg0 (((cfg0.win 0).blk t).view.emb (rowAt j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : iblk0 V c 1 t (colAt j k) = V c main_arg3 (Cert.ReferenceIdeal.Read.ridx_main_v32 (((cfg0.win 2).blk t).view.emb j) k) := by
    show V c main_arg3 (((cfg0.win 1).blk t).view.emb (colAt j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the table is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The twenty blocks of 5000 rows tile the 100000 rows: row `r` is in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE TABLE after the region: the product of the two arrays it found, at every index. -/
theorem final (c : Dev nD) : (dat0 V c).arrAt 2 cfg0.N = table V c :=
  (dat0 V c).arrAt_eq_of_cover 2 (table V c) (fun t _ => flushed_eq V c t) (covered)

end Cert.KernelIdeal.Features

end
-- ==== Proof.Head.lean ====
import proofs.«413117_j40037685133533_4_alg».proof.Proof.Gen.KernelIdeal.Frame
import proofs.«413117_j40037685133533_4_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The second pallas_call: `max(agg + b1, 0) · W2 + b2`, one block of 5000 rows per grid point.

  At row `r`, column `q` of a block the body stores `(∑ k, max(agg[r, k] + b1[k], 0) · W2[k, q]) + b2[q]`: the matmul
  into a zero accumulator is the plain sum over the 128 hidden columns, the two biases are one row broadcast over the
  5000, the rectifier is the maximum with the zero word.  Point `t` reads rows `5000 t … 5000 t + 4999` of `agg`, all
  of `W2`, `b1`, `b2`, and writes back the same rows of the result; the twenty blocks tile the 100000 rows.  So the
  array the region leaves is the layer's head `Cert.Layer.headOf` of the four arrays it found.
-/

set_option maxRecDepth 16384

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat)

/-! ## The block's stored value at an index -/

theorem hz2 : (![0, 0] : Fin 2 → Nat) = fun _ => 0 := funext fun a => by fin_cases a <;> rfl
theorem hz1 : (![0] : Fin 1 → Nat) = fun _ => 0 := funext fun a => by fin_cases a; rfl

theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Row `i 0` of the block of `agg`, at hidden column `k`. -/
abbrev rowAt (i : S5000x64.Idx) (k : Fin 128) : S5000x128.Idx := ix2 (⟨(i 0).val, (i 0).isLt⟩ : Fin 5000) k
/-- Column `i 1` of `W2`, at hidden row `k`. -/
abbrev colAt (i : S5000x64.Idx) (k : Fin 128) : S128x64.Idx := ix2 k (⟨(i 1).val, (i 1).isLt⟩ : Fin 64)

/-- The rectified biased block at `(r, k)`: `max(agg[r, k] + b1[k], 0)` — the one row `b1` read through its cast to
    `[1, 128]` and its broadcast over the 5000 rows. -/
theorem rectified_apply (v0 : Vec Ideal S5000x128 .f32) (v2 : Vec Ideal S128 .f32) (r : Fin 5000) (k : Fin 128) :
    maximumf (F := Ideal) (addf (F := Ideal) (shapeCast S5000x128 v0 shapeCasts_S5000x128_S5000x128)
        (broadcastTo S5000x128 (shapeCast S1x128 v2 shapeCasts_S128_S1x128) broadcasts_S1x128_S5000x128))
      (broadcast S5000x128 (Scalar.ofBits (F := Ideal) .f32 0x00000000#32)) (ix2 r k)
      = FloatOps.maximumf (F := Ideal) (φ := .f32) (FloatOps.addf (F := Ideal) (φ := .f32) (v0 (ix2 r k)) (v2 (ix1 k))) (FloatOps.ofBits (F := Ideal) .f32 0x00000000#32) := by
  show FloatOps.maximumf (F := Ideal) (φ := .f32) (FloatOps.addf (F := Ideal) (φ := .f32) (shapeCast S5000x128 v0 shapeCasts_S5000x128_S5000x128 (ix2 r k))
      (broadcastTo S5000x128 (shapeCast S1x128 v2 shapeCasts_S128_S1x128) broadcasts_S1x128_S5000x128 (ix2 r k))) _ = _
  rw [shapeCast_self, broadcastTo_1b_ab_apply, shapeCast_a_1a_apply]
  rfl

/-- The body's stored value at an index of the block. -/
theorem stored_apply (v0 : Vec Ideal S5000x128 .f32) (v2 : Vec Ideal S128 .f32) (v8 : Vec Ideal S128x64 .f32) (v10 : Vec Ideal S64 .f32) (i : S5000x64.Idx) :
    k1_pay1 (F := Ideal) v0 v2 v8 v10 i
      = FloatOps.addf (F := Ideal) (φ := .f32) (∑ k : Fin 128,
          FloatOps.maximumf (F := Ideal) (φ := .f32) (FloatOps.addf (F := Ideal) (φ := .f32) (v0 (rowAt i k)) (v2 (ix1 k))) (FloatOps.ofBits (F := Ideal) .f32 0x00000000#32)
            * v8 (colAt i k))
          (v10 (ix1 (⟨(i 1).val, (i 1).isLt⟩ : Fin 64))) := by
  obtain ⟨r, q, rfl⟩ : ∃ (r : Fin 5000) (q : Fin 64), i = ix2 r q := ⟨i 0, i 1, eq_ix2 i⟩
  show FloatOps.addf (F := Ideal) (φ := .f32)
      (FloatOps.matmul (F := Ideal) (φ₁ := .f32) (φ₂ := .f32) dot_S5000x128_S128x64_S5000x64_1_0_0_1_n_n none
        (maximumf (F := Ideal) (addf (F := Ideal) (shapeCast S5000x128 v0 shapeCasts_S5000x128_S5000x128)
          (broadcastTo S5000x128 (shapeCast S1x128 v2 shapeCasts_S128_S1x128) broadcasts_S1x128_S5000x128))
          (broadcast S5000x128 (Scalar.ofBits (F := Ideal) .f32 0x00000000#32)))
        v8 (constant (F := Ideal) S5000x64 .f32 0x00000000#32) (ix2 r q))
      (broadcastTo S5000x64 (shapeCast S1x64 v10 shapeCasts_S64_S1x64) broadcasts_S1x64_S5000x64 (ix2 r q)) = _
  rw [broadcastTo_1b_ab_apply, shapeCast_a_1a_apply, Ideal.matmul_constant_zero_apply,
    ← Equiv.sum_comp (ValueIdx.contrEquiv1 dot_S5000x128_S128x64_S5000x64_1_0_0_1_n_n 128 rfl rfl).symm]
  refine congrArg (FloatOps.addf (F := Ideal) (φ := .f32) · _) (Finset.sum_congr rfl fun k _ => ?_)
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er, rectified_apply]

/-! ## From the blocks to the array -/

variable (V : (c : Dev nD) → (b : Ref sig .tc) → Buf (Elt Ideal) ((c : Thread nD τ).loc b))

/-- The whole result: the layer's head of the four arrays the region finds. -/
def result (c : Dev nD) : Buf (Elt Ideal) ((c : Thread nD τ).loc main_v47) :=
  Cert.Layer.headOf (F := Ideal) (V c main_v46) (V c main_arg4) (V c main_arg5) (V c main_arg6)

/-- The printed index maps over the twenty points: the block of `agg` and the result's block are the same block of
    rows, and every other block coordinate is `0`. -/
theorem idx_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 1) = 0
    ∧ win1_4.index t (1 : Fin 2) = 0
    ∧ win1_4.index t (0 : Fin 2) ≤ 19 :=
  (by decide +kernel : ∀ t : Fin grid1.N, _)

/-- Every block of rows is some point's. -/
theorem idx_onto : ∀ q : Fin 20, ∃ t : Fin cfg1.N, win1_4.index t = ![q.val, 0] :=
  (by decide +kernel : ∀ q : Fin 20, ∃ t : Fin grid1.N, win1_4.index t = ![q.val, 0])

/-- WHAT POINT `t` WRITES BACK is block `t` of the head: row `r` of the block is row `5000 t + r` of `agg`; `W2`, `b1`
    and `b2` sit where they are; the two sums run over the same products. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz2]
  simp only [View.ld_unit_zero (S := S5000x128) hz2, View.ld_unit_zero (S := S128x64) hz2, View.ld_unit_zero (S := S128) hz1, View.ld_unit_zero (S := S64) hz1]
  obtain ⟨e0, e1, e2, e3, e4, e5, e6, e7⟩ := idx_facts t
  funext j
  show k1_pay1 (F := Ideal) (iblk1 V c 0 t) (iblk1 V c 2 t) (iblk1 V c 1 t) (iblk1 V c 3 t) j
      = Cert.Layer.headOf (F := Ideal) (V c main_v46) (V c main_arg4) (V c main_arg5) (V c main_arg6) (((cfg1.win 4).blk t).view.emb j)
  rw [stored_apply, Cert.Layer.headOf_apply]
  have hb2 : iblk1 V c 3 t (ix1 (⟨(j 1).val, (j 1).isLt⟩ : Fin 64))
      = V c main_arg6 (Cert.ReferenceIdeal.Read.idx_main_v51 (Cert.ReferenceIdeal.Read.idx_main_v52 (((cfg1.win 4).blk t).view.emb j))) := by
    show V c main_arg6 (((cfg1.win 3).blk t).view.emb (ix1 (⟨(j 1).val, (j 1).isLt⟩ : Fin 64))) = _
    refine congrArg (V c main_arg6) (funext fun a => Fin.ext ?_)
    match a with
    | ⟨0, _⟩ => show win1_3.index t (0 : Fin 1) * 64 + 1 * (j 1).val = win1_4.index t (1 : Fin 2) * 64 + 1 * (j 1).val; omega
  rw [hb2]
  refine congrArg (FloatOps.addf (F := Ideal) (φ := .f32) · _) (Finset.sum_congr rfl fun k _ => ?_)
  have hagg : iblk1 V c 0 t (rowAt j k) = V c main_v46 (Cert.ReferenceIdeal.Read.lidx_main_v50 (((cfg1.win 4).blk t).view.emb j) k) := by
    show V c main_v46 (((cfg1.win 0).blk t).view.emb (rowAt j k)) = _
    refine congrArg (V c main_v46) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  have hb1 : iblk1 V c 2 t (ix1 k)
      = V c main_arg4 (Cert.ReferenceIdeal.Read.idx_main_v46 (Cert.ReferenceIdeal.Read.idx_main_v47 (Cert.ReferenceIdeal.Read.lidx_main_v50 (((cfg1.win 4).blk t).view.emb j) k))) := by
    show V c main_arg4 (((cfg1.win 2).blk t).view.emb (ix1 k)) = _
    refine congrArg (V c main_arg4) (funext fun a => Fin.ext ?_)
    match a with
    | ⟨0, _⟩ => show win1_2.index t (0 : Fin 1) * 128 + 1 * k.val = k.val; omega
  have hw2 : iblk1 V c 1 t (colAt j k) = V c main_arg5 (Cert.ReferenceIdeal.Read.ridx_main_v50 (((cfg1.win 4).blk t).view.emb j) k) := by
    show V c main_arg5 (((cfg1.win 1).blk t).view.emb (colAt j k)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 64 + 1 * (j 1).val = win1_4.index t (1 : Fin 2) * 64 + 1 * (j 1).val; omega
  rw [hagg, hb1, hw2]

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v47).slice (win1_4.rect t)).set ↔ _
  rw [View.set_slice_whole, Rect.mem_set_unit]
  exact Iff.rfl

/-- The twenty blocks of 5000 rows tile the 100000 rows: row `r` is in the block of point `r / 5000`. -/
theorem covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE RESULT after the region: the head of the four arrays it found, at every index. -/
theorem final (c : Dev nD) : (dat1 V c).arrAt 4 cfg1.N = result V c :=
  (dat1 V c).arrAt_eq_of_cover 4 (result V c) (fun t _ => flushed_eq V c t) (covered)

end Cert.KernelIdeal.Head

end
-- ==== Proof.Between.lean ====
import proofs.«413117_j40037685133533_4_alg».proof.Proof.Gen.KernelIdeal.Launch
import proofs.«413117_j40037685133533_4_alg».proof.Proof.Spec
import Idealize.ShloMosaic.Lib.StableHlo.Run

/-!
  The host stretches of the kernel's @main, read.

  Around its two pallas_calls the kernel's program does on the host exactly what the reference does: it splits the edge
  list into sources and targets and appends one self loop per node (`src`, `dst`, the weights with ones appended),
  sums the weights into each target's degree, takes `dinv = deg > 0 ? rsqrt(deg) : 0`, forms each edge's
  normalisation `dinv[src] · w · dinv[dst]`, and — between the two calls — gathers the rows of the feature table,
  scales them, and scatter-adds them by target.  Each stretch is run here from an ABSTRACT valuation of the buffers: what it leaves
  in the buffers later segments read is the reference's own stage function of what it found in the buffers it reads.
  The one difference is that the kernel's feature table is stored in bf16 and widened after the gather; at the
  extended reals a change of format is the identity, so the aggregation is `Cert.Layer.aggOf` of the table as it stands.
-/

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (W : Valuation τ sig (Elt Ideal))
variable (e : (⟨S2x1600000, .i32⟩ : BufTy).Contents (Elt Ideal)) (w : (⟨S1600000, .f32⟩ : BufTy).Contents (Elt Ideal))

/-! ## The first stretch: sources, targets, weights with the self loops; the degree compared with zero and its
    inverse square root -/

section first
variable (h1 : W (Proc.devRef .tc main_arg1) = e) (h2 : W (Proc.devRef .tc main_arg2) = w)
include h1 in
theorem first_src : after (hostOps0 (F := Ideal)) W (Proc.devRef .tc main_v5) = Cert.ReferenceIdeal.Read.val_main_v5 (F := Ideal) e := by
  simp only [hostOps0]; after_results; rw [h1]; rfl
include h1 in
theorem first_dst : after (hostOps0 (F := Ideal)) W (Proc.devRef .tc main_v6) = Cert.ReferenceIdeal.Read.val_main_v6 (F := Ideal) e := by
  simp only [hostOps0]; after_results; rw [h1]; rfl
include h2 in
theorem first_weights : after (hostOps0 (F := Ideal)) W (Proc.devRef .tc main_v8) = Cert.ReferenceIdeal.Read.val_main_v8 (F := Ideal) w := by
  simp only [hostOps0]; after_results; rw [h2]; rfl
include h1 h2 in
theorem first_positive : after (hostOps0 (F := Ideal)) W (Proc.devRef .tc main_v13) = Cert.ReferenceIdeal.Read.val_main_v13 (F := Ideal) e w := by
  simp only [hostOps0]; after_results; rw [h1, h2]; rfl
include h1 h2 in
theorem first_rsqrt : after (hostOps0 (F := Ideal)) W (Proc.devRef .tc main_v14) = Cert.ReferenceIdeal.Read.val_main_v14 (F := Ideal) e w := by
  simp only [hostOps0]; after_results; rw [h1, h2]; rfl
theorem first_zero : after (hostOps0 (F := Ideal)) W (Proc.devRef .tc main_cst_2) = Cert.ReferenceIdeal.Read.val_main_cst_2 (F := Ideal) := by
  simp only [hostOps0]; after_results; rfl
end first

/-! ## The second stretch (`jnp.where`): `dinv = deg > 0 ? rsqrt(deg) : 0`; sources, targets and weights pass through -/

section second
variable (h13 : W (Proc.devRef .tc main_v13) = Cert.ReferenceIdeal.Read.val_main_v13 (F := Ideal) e w) (h14 : W (Proc.devRef .tc main_v14) = Cert.ReferenceIdeal.Read.val_main_v14 (F := Ideal) e w)
  (hc2 : W (Proc.devRef .tc main_cst_2) = Cert.ReferenceIdeal.Read.val_main_cst_2 (F := Ideal))
include h13 h14 hc2 in
theorem second_dinv : after (hostOps0_1 (F := Ideal)) W (Proc.devRef .tc main_v15) = Cert.ReferenceIdeal.Read.val_main_v15 (F := Ideal) e w := by
  simp only [hostOps0_1]; after_results
  -- the called function's operations carry their operands' types along casts that are the identity at these buffers
  show select (W (Proc.devRef .tc main_v13)) (W (Proc.devRef .tc main_v14)) (broadcastInDim S100000 ![] bcast_S_S100000 (id (W (Proc.devRef .tc main_cst_2)))) = _
  rw [h13, h14, hc2]
  rfl
theorem second_src : after (hostOps0_1 (F := Ideal)) W (Proc.devRef .tc main_v5) = W (Proc.devRef .tc main_v5) := by
  simp only [hostOps0_1]; after_results
theorem second_dst : after (hostOps0_1 (F := Ideal)) W (Proc.devRef .tc main_v6) = W (Proc.devRef .tc main_v6) := by
  simp only [hostOps0_1]; after_results
theorem second_weights : after (hostOps0_1 (F := Ideal)) W (Proc.devRef .tc main_v8) = W (Proc.devRef .tc main_v8) := by
  simp only [hostOps0_1]; after_results
end second

/-! ## The third stretch: each edge's normalisation `dinv[src] · w · dinv[dst]`; sources and targets pass through -/

section third
variable (h5 : W (Proc.devRef .tc main_v5) = Cert.ReferenceIdeal.Read.val_main_v5 (F := Ideal) e) (h6 : W (Proc.devRef .tc main_v6) = Cert.ReferenceIdeal.Read.val_main_v6 (F := Ideal) e)
  (h8 : W (Proc.devRef .tc main_v8) = Cert.ReferenceIdeal.Read.val_main_v8 (F := Ideal) w) (h15 : W (Proc.devRef .tc main_v15) = Cert.ReferenceIdeal.Read.val_main_v15 (F := Ideal) e w)
include h5 h6 h8 h15 in
theorem third_norm : after (hostOps0_2 (F := Ideal)) W (Proc.devRef .tc main_v31) = Cert.ReferenceIdeal.Read.val_main_v31 (F := Ideal) e w := by
  simp only [hostOps0_2]; after_results_simp; rw [h5, h6, h8, h15]; rfl
theorem third_src : after (hostOps0_2 (F := Ideal)) W (Proc.devRef .tc main_v5) = W (Proc.devRef .tc main_v5) := by
  simp only [hostOps0_2]; after_results
theorem third_dst : after (hostOps0_2 (F := Ideal)) W (Proc.devRef .tc main_v6) = W (Proc.devRef .tc main_v6) := by
  simp only [hostOps0_2]; after_results
end third

/-! ## The stretch between the two calls: gather the table's rows by source, scale by the normalisation, scatter-add by
    target -/

section fourth
variable (h : (⟨S100000x128, .f32⟩ : BufTy).Contents (Elt Ideal))
variable (h32 : W (Proc.devRef .tc main_v32) = h) (h5 : W (Proc.devRef .tc main_v5) = Cert.ReferenceIdeal.Read.val_main_v5 (F := Ideal) e)
  (h6 : W (Proc.devRef .tc main_v6) = Cert.ReferenceIdeal.Read.val_main_v6 (F := Ideal) e) (h31 : W (Proc.devRef .tc main_v31) = Cert.ReferenceIdeal.Read.val_main_v31 (F := Ideal) e w)
include h32 h5 h6 h31 in
/-- The table is gathered in the format it is stored in and widened afterwards; at the extended reals the widening is the
    identity, so this is the aggregation of the table as it stands. -/
theorem fourth_agg : after (hostOps1 (F := Ideal)) W (Proc.devRef .tc main_v46) = Cert.Layer.aggOf (F := Ideal) h e w := by
  simp only [hostOps1]; after_results_simp; rw [h32, h5, h6, h31]; rfl
end fourth

/-! ## No stretch before the first call writes `x` or `W1` -/

section kept
theorem first_x : after (hostOps0 (F := Ideal)) W (Proc.devRef .tc main_arg0) = W (Proc.devRef .tc main_arg0) := by
  simp only [hostOps0]; after_results
theorem first_W1 : after (hostOps0 (F := Ideal)) W (Proc.devRef .tc main_arg3) = W (Proc.devRef .tc main_arg3) := by
  simp only [hostOps0]; after_results
theorem second_x : after (hostOps0_1 (F := Ideal)) W (Proc.devRef .tc main_arg0) = W (Proc.devRef .tc main_arg0) := by
  simp only [hostOps0_1]; after_results
theorem second_W1 : after (hostOps0_1 (F := Ideal)) W (Proc.devRef .tc main_arg3) = W (Proc.devRef .tc main_arg3) := by
  simp only [hostOps0_1]; after_results
theorem third_x : after (hostOps0_2 (F := Ideal)) W (Proc.devRef .tc main_arg0) = W (Proc.devRef .tc main_arg0) := by
  simp only [hostOps0_2]; after_results
theorem third_W1 : after (hostOps0_2 (F := Ideal)) W (Proc.devRef .tc main_arg3) = W (Proc.devRef .tc main_arg3) := by
  simp only [hostOps0_2]; after_results
end kept

end Cert.KernelIdeal.Between

end
-- ==== Proof.Whole.lean ====
import proofs.«413117_j40037685133533_4_alg».proof.Proof.KernelRun
import proofs.«413117_j40037685133533_4_alg».proof.Proof.Features
import proofs.«413117_j40037685133533_4_alg».proof.Proof.Head
import proofs.«413117_j40037685133533_4_alg».proof.Proof.Between

/-!
  The idealized kernel's result as one function of its arguments.

  The run ends with the result buffer at the last boundary's contents.  Walking the boundaries back: the second call
  leaves the head of what it found — the aggregation buffer and `b1`, `W2`, `b2`, none of which anything has written;
  the stretch before it leaves the aggregation of the first call's table by the sources, targets and normalisation the
  earlier stretches computed from the edge list and the weights, which the first call does not touch; the first call
  leaves the product of `x` and `W1`.  So the result is `headOf (aggOf (x · W1) e w) b1 W2 b2`.
-/

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The edge data at the first call's entry, and through it -/

theorem src3 (c : Dev nD) : W3 m ρ c (Proc.devRef .tc main_v5) = Cert.ReferenceIdeal.Read.val_main_v5 (F := Ideal) (m ((c.tc : Thread nD τ).loc main_arg1)) :=
  (Cert.KernelIdeal.Between.third_src (W2 m ρ c)).trans ((Cert.KernelIdeal.Between.second_src (W1 m ρ c)).trans (Cert.KernelIdeal.Between.first_src (W0 m ρ c) _ rfl))
theorem dst3 (c : Dev nD) : W3 m ρ c (Proc.devRef .tc main_v6) = Cert.ReferenceIdeal.Read.val_main_v6 (F := Ideal) (m ((c.tc : Thread nD τ).loc main_arg1)) :=
  (Cert.KernelIdeal.Between.third_dst (W2 m ρ c)).trans ((Cert.KernelIdeal.Between.second_dst (W1 m ρ c)).trans (Cert.KernelIdeal.Between.first_dst (W0 m ρ c) _ rfl))
theorem weights2 (c : Dev nD) : W2 m ρ c (Proc.devRef .tc main_v8) = Cert.ReferenceIdeal.Read.val_main_v8 (F := Ideal) (m ((c.tc : Thread nD τ).loc main_arg2)) :=
  (Cert.KernelIdeal.Between.second_weights (W1 m ρ c)).trans (Cert.KernelIdeal.Between.first_weights (W0 m ρ c) _ rfl)
theorem dinv2 (c : Dev nD) : W2 m ρ c (Proc.devRef .tc main_v15) = Cert.ReferenceIdeal.Read.val_main_v15 (F := Ideal) (m ((c.tc : Thread nD τ).loc main_arg1)) (m ((c.tc : Thread nD τ).loc main_arg2)) :=
  Cert.KernelIdeal.Between.second_dinv (W1 m ρ c) _ _ (Cert.KernelIdeal.Between.first_positive (W0 m ρ c) _ _ rfl rfl) (Cert.KernelIdeal.Between.first_rsqrt (W0 m ρ c) _ _ rfl rfl) (Cert.KernelIdeal.Between.first_zero (W0 m ρ c))
theorem norm3 (c : Dev nD) : W3 m ρ c (Proc.devRef .tc main_v31) = Cert.ReferenceIdeal.Read.val_main_v31 (F := Ideal) (m ((c.tc : Thread nD τ).loc main_arg1)) (m ((c.tc : Thread nD τ).loc main_arg2)) :=
  Cert.KernelIdeal.Between.third_norm (W2 m ρ c) _ _
    ((Cert.KernelIdeal.Between.second_src (W1 m ρ c)).trans (Cert.KernelIdeal.Between.first_src (W0 m ρ c) _ rfl))
    ((Cert.KernelIdeal.Between.second_dst (W1 m ρ c)).trans (Cert.KernelIdeal.Between.first_dst (W0 m ρ c) _ rfl))
    (weights2 m ρ c) (dinv2 m ρ c)
theorem x3 (c : Dev nD) : W3 m ρ c (Proc.devRef .tc main_arg0) = (m ((c.tc : Thread nD τ).loc main_arg0)) :=
  (Cert.KernelIdeal.Between.third_x (W2 m ρ c)).trans ((Cert.KernelIdeal.Between.second_x (W1 m ρ c)).trans (Cert.KernelIdeal.Between.first_x (W0 m ρ c)))
theorem W1_3 (c : Dev nD) : W3 m ρ c (Proc.devRef .tc main_arg3) = (m ((c.tc : Thread nD τ).loc main_arg3)) :=
  (Cert.KernelIdeal.Between.third_W1 (W2 m ρ c)).trans ((Cert.KernelIdeal.Between.second_W1 (W1 m ρ c)).trans (Cert.KernelIdeal.Between.first_W1 (W0 m ρ c)))

/-- The first call's table: the product of `x` and `W1` as launched. -/
theorem table4 (c : Dev nD) : W4 m ρ c (Proc.devRef .tc main_v32)
    = Cert.ReferenceIdeal.Read.val_main_v32 (F := Ideal) (m ((c.tc : Thread nD τ).loc main_arg0)) (m ((c.tc : Thread nD τ).loc main_arg3)) := by
  refine (W4_arr m ρ c 2).trans ((Cert.KernelIdeal.Features.final (V3 m ρ) c).trans ?_)
  unfold Cert.KernelIdeal.Features.table
  rw [show V3 m ρ c main_arg0 = (m ((c.tc : Thread nD τ).loc main_arg0)) from x3 m ρ c, show V3 m ρ c main_arg3 = (m ((c.tc : Thread nD τ).loc main_arg3)) from W1_3 m ρ c]

/-- The aggregation the second call finds. -/
theorem agg5 (c : Dev nD) : W5 m ρ c (Proc.devRef .tc main_v46)
    = Cert.Layer.aggOf (F := Ideal) (Cert.ReferenceIdeal.Read.val_main_v32 (F := Ideal) (m ((c.tc : Thread nD τ).loc main_arg0)) (m ((c.tc : Thread nD τ).loc main_arg3))) (m ((c.tc : Thread nD τ).loc main_arg1)) (m ((c.tc : Thread nD τ).loc main_arg2)) :=
  Cert.KernelIdeal.Between.fourth_agg (W4 m ρ c) _ _ _ (table4 m ρ c)
    ((W4_of_ne m ρ c main_v5 (by decide)).trans (src3 m ρ c))
    ((W4_of_ne m ρ c main_v6 (by decide)).trans (dst3 m ρ c))
    ((W4_of_ne m ρ c main_v31 (by decide)).trans (norm3 m ρ c))

/-! ## The second call's other operands are the arguments as launched -/

theorem b1_5 (c : Dev nD) : W5 m ρ c (Proc.devRef .tc main_arg4) = (m ((c.tc : Thread nD τ).loc main_arg4)) :=
  ((W6_arr m ρ c 2).trans (((dat1 (V5 m ρ) c).arrAt_in 2 rfl _).trans (A_eq1 (V5 m ρ) c 2))).symm.trans (W6_main_arg4 m ρ c)
theorem W2_5 (c : Dev nD) : W5 m ρ c (Proc.devRef .tc main_arg5) = (m ((c.tc : Thread nD τ).loc main_arg5)) :=
  ((W6_arr m ρ c 1).trans (((dat1 (V5 m ρ) c).arrAt_in 1 rfl _).trans (A_eq1 (V5 m ρ) c 1))).symm.trans (W6_main_arg5 m ρ c)
theorem b2_5 (c : Dev nD) : W5 m ρ c (Proc.devRef .tc main_arg6) = (m ((c.tc : Thread nD τ).loc main_arg6)) :=
  ((W6_arr m ρ c 3).trans (((dat1 (V5 m ρ) c).arrAt_in 3 rfl _).trans (A_eq1 (V5 m ρ) c 3))).symm.trans (W6_main_arg6 m ρ c)

/-! ## The result -/

/-- The layer of the arguments: what both programs compute. -/
def layer (c : Dev nD) : Buf (Elt Ideal) ((c.tc : Thread nD τ).loc main_v47) :=
  Cert.Layer.headOf (F := Ideal)
    (Cert.Layer.aggOf (F := Ideal) (Cert.ReferenceIdeal.Read.val_main_v32 (F := Ideal) (m ((c.tc : Thread nD τ).loc main_arg0)) (m ((c.tc : Thread nD τ).loc main_arg3))) (m ((c.tc : Thread nD τ).loc main_arg1)) (m ((c.tc : Thread nD τ).loc main_arg2)))
    (m ((c.tc : Thread nD τ).loc main_arg4)) (m ((c.tc : Thread nD τ).loc main_arg5)) (m ((c.tc : Thread nD τ).loc main_arg6))

theorem result6 (c : Dev nD) : W6 m ρ c (Proc.devRef .tc main_v47) = layer m c := by
  refine (W6_arr m ρ c 4).trans ((Cert.KernelIdeal.Head.final (V5 m ρ) c).trans ?_)
  unfold Cert.KernelIdeal.Head.result layer
  rw [show V5 m ρ c main_v46 = _ from agg5 m ρ c, show V5 m ρ c main_arg4 = (m ((c.tc : Thread nD τ).loc main_arg4)) from b1_5 m ρ c,
    show V5 m ρ c main_arg5 = (m ((c.tc : Thread nD τ).loc main_arg5)) from W2_5 m ρ c, show V5 m ρ c main_arg6 = (m ((c.tc : Thread nD τ).loc main_arg6)) from b2_5 m ρ c]

/-- Every weakly fair execution of the idealized kernel terminates, nothing faulting, with the result buffer at the layer of
    the arguments and the arguments as launched. -/
theorem run : θ_run defs (onTc (τ := τ) (main (F := Ideal))) ⟨m, fun _ => 0, ρ⟩ (fun r => ∀ c : Dev nD,
      r.2.mem ((c.tc : Thread nD τ).loc main_v47) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result6 m ρ c), (h c).2⟩) (Cert.KernelIdeal.Run.run_main m ρ)

end Cert.KernelIdeal.Whole

end
-- ==== Proof.lean ====
/-
  A two-layer graph convolution head, `out = max(Â · (x · W1) + b1, 0) · W2 + b2`, where `Â` is the weighted
  adjacency of the given edges with one self loop per node, normalised symmetrically by the inverse square roots of the
  target degrees (a degree that is not positive normalises to `0`).

  The kernel and the reference compute `Â`'s action the same way, on the host: gather the rows of `h = x · W1` by
  source, scale each by `dinv[src] · w · dinv[dst]`, scatter-add by target.  They differ in where the two dense products are
  done: the kernel forms `x · W1` in one pallas_call and `max(· + b1, 0) · W2 + b2` in another, each over twenty blocks of
  5000 rows, and stores `h` in bf16; the reference uses the host's `dot_general` on whole arrays.

  Over the extended reals these are one function of the arguments.  A matmul into a zero accumulator and a
  `dot_general` are the same sum of 128 products at every index; a row block of a product depends on the same row block
  of the left factor only, so the twenty blocks of either call tile the whole-array product; narrowing `h` to bf16 and
  widening it back after the gather is the identity.  No law that needs finite entries is used: the two sides are the same
  sums of the same products, so the precondition is never opened.

  Proof/Features.lean and Proof/Head.lean read the two calls' final arrays (each IS the host expression of the arrays it
  found), Proof/Between.lean reads the host stretches, Proof/Whole.lean threads them into the kernel's run with its result
  named, and Proof/Spec.lean states the layer's two halves as functions of what flows between them.
-/
import proofs.«413117_j40037685133533_4_alg».proof.Defs
import proofs.«413117_j40037685133533_4_alg».proof.Proof.Gen.Kernel
import proofs.«413117_j40037685133533_4_alg».proof.Proof.Gen.Kernel.Frame
import proofs.«413117_j40037685133533_4_alg».proof.Proof.Gen.KernelIdeal
import proofs.«413117_j40037685133533_4_alg».proof.Proof.Gen.KernelIdeal.Frame
import proofs.«413117_j40037685133533_4_alg».proof.Proof.Gen.ReferenceIdeal
import proofs.«413117_j40037685133533_4_alg».proof.Proof.Gen.Pre_finite_inputs
import proofs.«413117_j40037685133533_4_alg».proof.Proof.Gen.ReferenceIdeal.Run
import proofs.«413117_j40037685133533_4_alg».proof.Proof.Gen.ReferenceIdeal.Read
import proofs.«413117_j40037685133533_4_alg».proof.Proof.Spec
import proofs.«413117_j40037685133533_4_alg».proof.Proof.Whole
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the layer of the arguments: the kernel by its run read region by region, the reference because
    its composed term is the head of the aggregation of the host's product by definition; the arguments agree. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.Layer.reference_eq, (hagree c).1, (hagree c).2.1, (hagree c).2.2.1,
    (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
